-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x1024 : Shape := ⟨4, ![16, 3, 512, 1024]⟩
abbrev S_ : Shape := ⟨0, ![]⟩

class Facts : Prop where
  bcast_S_S16x3x512x1024 : S_.BroadcastsInDim S16x3x512x1024 (![] : Fin 0 → Fin S16x3x512x1024.rank)
  reducesTo_S16x3x512x1024_S_d0_1_2_3 : S16x3x512x1024.ReducesTo [0, 1, 2, 3] S_
  h_S_ : 0 < S_.numel

variable [Facts]

def fn {F : FTy → Type} [FloatOps F] (main_arg0 : FVec F S16x3x512x1024 .f32) (main_arg1 : FVec F S16x3x512x1024 .f32) : IVec S_ 1 :=
  let main_v0 : FVec F S16x3x512x1024 .f32 := Host.absf main_arg0
  let main_cst : FVec F S_ .f32 := constant S_ .f32 0x7F800000#32
  let main_v1 : FVec F S16x3x512x1024 .f32 := broadcastInDim S16x3x512x1024 ![] bcast_S_S16x3x512x1024 main_cst
  let main_v2 : IVec S16x3x512x1024 1 := cmpf .olt main_v0 main_v1
  let main_c : IVec S_ 1 := constantI S_ 1 1#1
  let main_v3 : IVec S_ 1 := (fun x v => Host.reduce IntOp.andi x v reducesTo_S16x3x512x1024_S_d0_1_2_3 h_S_) main_v2 main_c
  let main_v4 : FVec F S16x3x512x1024 .f32 := Host.absf main_arg1
  let main_cst_0 : FVec F S_ .f32 := constant S_ .f32 0x7F800000#32
  let main_v5 : FVec F S16x3x512x1024 .f32 := broadcastInDim S16x3x512x1024 ![] bcast_S_S16x3x512x1024 main_cst_0
  let main_v6 : IVec S16x3x512x1024 1 := cmpf .olt main_v4 main_v5
  let main_c_1 : IVec S_ 1 := constantI S_ 1 1#1
  let main_v7 : IVec S_ 1 := (fun x v => Host.reduce IntOp.andi x v reducesTo_S16x3x512x1024_S_d0_1_2_3 h_S_) main_v6 main_c_1
  let main_v8 : IVec S_ 1 := andi main_v3 main_v7
  main_v8
-- ==== Kernel.lean ====
abbrev S16x3x512x1024 : Shape := ⟨4, ![16, 3, 512, 1024]⟩
abbrev S48x512x1024 : Shape := ⟨3, ![48, 512, 1024]⟩
abbrev S48x1024x1024 : Shape := ⟨3, ![48, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S512x1x1024 : Shape := ⟨3, ![512, 1, 1024]⟩
abbrev S512x2x1024 : Shape := ⟨3, ![512, 2, 1024]⟩
abbrev S1024x1024 : Shape := ⟨2, ![1024, 1024]⟩
abbrev S16x3x1024x1024 : Shape := ⟨4, ![16, 3, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x3x512x1024, .f32⟩
  | .hbm, ⟨1, _⟩ => ⟨S16x3x512x1024, .f32⟩
  | .hbm, ⟨2, _⟩ => ⟨S48x512x1024, .f32⟩
  | .hbm, ⟨3, _⟩ => ⟨S48x512x1024, .f32⟩
  | .hbm, ⟨4, _⟩ => ⟨S48x1024x1024, .f32⟩
  | .hbm, ⟨5, _⟩ => ⟨S16x3x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .f32⟩
  | .local _ .vmem, ⟨5, _⟩ => ⟨S1x1024x1024, .f32⟩
  | _, _ => ⟨S16x3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x3x512x1024_S48x512x1024 : S16x3x512x1024.ShapeCasts S48x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S512x1x1024 : S512x1024.ShapeCasts S512x1x1024
  concatenates_S512x1x1024_S512x1x1024_S512x2x1024_d1 : Shape.Concatenates [S512x1x1024, S512x1x1024] S512x2x1024 1
  shapeCasts_S512x2x1024_S1024x1024 : S512x2x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S48x1024x1024_S16x3x1024x1024 : S48x1024x1024.ShapeCasts S16x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S48x512x1024.size a
  hwx0_0 : ∀ i : grid0.Coords, EltTy.bits .f32 = 32 ∨ (Rect.block (s := S48x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S48x512x1024.size a
  hwx0_1 : ∀ i : grid0.Coords, EltTy.bits .f32 = 32 ∨ (Rect.block (s := S48x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S48x1024x1024.size a
  hwx0_2 : ∀ i : grid0.Coords, EltTy.bits .f32 = 32 ∨ (Rect.block (s := S48x1024x1024) S1x1024x1024.size (cc0_transform_2 i) (hinb0_2 i)).WholeWords (EltTy.packing .f32)

variable [Facts₀]

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x512x1024 : Shape := ⟨4, ![16, 3, 512, 1024]⟩
abbrev S_ : Shape := ⟨0, ![]⟩
abbrev S16x3x512x1x1024 : Shape := ⟨5, ![16, 3, 512, 1, 1024]⟩
abbrev S16x3x512x2x1024 : Shape := ⟨5, ![16, 3, 512, 2, 1024]⟩
abbrev S16x3x1024x1024 : Shape := ⟨4, ![16, 3, 1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x3x512x1024, .f32⟩
  | .hbm, ⟨1, _⟩ => ⟨S16x3x512x1024, .f32⟩
  | .hbm, ⟨2, _⟩ => ⟨S16x3x512x1024, .f32⟩
  | .hbm, ⟨3, _⟩ => ⟨S16x3x512x1024, .f32⟩
  | .hbm, ⟨4, _⟩ => ⟨S_, .f32⟩
  | .hbm, ⟨5, _⟩ => ⟨S16x3x512x1024, .f32⟩
  | .hbm, ⟨6, _⟩ => ⟨S16x3x512x1024, .f32⟩
  | .hbm, ⟨7, _⟩ => ⟨S_, .f32⟩
  | .hbm, ⟨8, _⟩ => ⟨S16x3x512x1024, .f32⟩
  | .hbm, ⟨9, _⟩ => ⟨S16x3x512x1024, .f32⟩
  | .hbm, ⟨10, _⟩ => ⟨S16x3x512x1024, .f32⟩
  | .hbm, ⟨11, _⟩ => ⟨S_, .f32⟩
  | .hbm, ⟨12, _⟩ => ⟨S16x3x512x1024, .f32⟩
  | .hbm, ⟨13, _⟩ => ⟨S16x3x512x1024, .f32⟩
  | .hbm, ⟨14, _⟩ => ⟨S_, .f32⟩
  | .hbm, ⟨15, _⟩ => ⟨S16x3x512x1024, .f32⟩
  | .hbm, ⟨16, _⟩ => ⟨S16x3x512x1024, .f32⟩
  | .hbm, ⟨17, _⟩ => ⟨S16x3x512x1024, .f32⟩
  | .hbm, ⟨18, _⟩ => ⟨S16x3x512x1x1024, .f32⟩
  | .hbm, ⟨19, _⟩ => ⟨S16x3x512x1x1024, .f32⟩
  | .hbm, ⟨20, _⟩ => ⟨S16x3x512x2x1024, .f32⟩
  | .hbm, ⟨21, _⟩ => ⟨S16x3x1024x1024, .f32⟩
  | _, _ => ⟨S16x3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S16x3x512x1024 : S_.BroadcastsInDim S16x3x512x1024 (![] : Fin 0 → Fin S16x3x512x1024.rank)
  bcast_S16x3x512x1024_S16x3x512x1x1024_0_1_2_4 : S16x3x512x1024.BroadcastsInDim S16x3x512x1x1024 (![0, 1, 2, 4] : Fin 4 → Fin S16x3x512x1x1024.rank)
  concatenates_S16x3x512x1x1024_S16x3x512x1x1024_S16x3x512x2x1024_d3 : Shape.Concatenates [S16x3x512x1x1024, S16x3x512x1x1024] S16x3x512x2x1024 3
  shapeCasts_S16x3x512x2x1024_S16x3x1024x1024 : S16x3x512x2x1024.ShapeCasts S16x3x1024x1024

variable [Facts₀]

class Facts : Prop extends Facts₀ where

variable [Facts]
-- ==== Proof.Haar.lean ====
/-
  One step of the inverse Haar transform along the height axis, as a function on the extended reals.

  From a low-pass entry `a` and a detail entry `b` the transform forms `s = a + b` and `d = a - b` and writes two
  output rows: the even one `h·s + h·d` and the odd one `h·s - h·d`, where `h` is the float word for one half.
  Output row `r` of the doubled axis is the even row of input row `r / 2` when `r` is even and its odd row when
  `r` is odd. The same arrangement is stated at the three shapes it is met in: one block [1, 1024, 1024] from
  blocks [1, 512, 1024]; the array [48, 1024, 1024] from arrays [48, 512, 1024]; the array [16, 3, 1024, 1024] from
  arrays [16, 3, 512, 1024].

  The odd row has a second spelling, `h·s + (-h)·d` with the word for minus one half. On the extended reals
  `x - y = x + (-y)` and `(-h)·d = -(h·d)` hold at the infinities too, so the two spellings agree for every
  entry and no finiteness of the inputs is used.
-/
import Idealize.ShloMosaic.PureOps.Ideal
import Idealize.ShloMosaic.Lib.ValueIdx

noncomputable section

namespace Cert.Haar

open Idealize.ShloMosaic Idealize.ShloMosaic.ValueIdx

/-- One half, as the float word `0x3F000000` denotes it. -/
def half : EReal := Ideal.ofBits .f32 0x3F000000#32

/-- The word `0x3F000000` denotes the real 1/2. -/
theorem half_eq : half = ((1 / 2 : ℝ) : EReal) := by
  unfold half
  simp [Ideal.ofBits, Ideal.ieee, -EReal.coe_mul]; norm_num

/-- The word `0xBF000000` denotes the real -1/2. -/
theorem negHalf_word : Ideal.ofBits .f32 0xBF000000#32 = ((-(1 / 2) : ℝ) : EReal) := by
  simp [Ideal.ofBits, Ideal.ieee, -EReal.coe_mul]; norm_num

/-- So it denotes minus what `0x3F000000` denotes. -/
theorem negHalf : Ideal.ofBits .f32 0xBF000000#32 = -half := by
  rw [negHalf_word, half_eq, EReal.coe_neg]

/-- An even output row's entry from the low-pass entry `a` and the detail entry `b`. -/
def evenOf (a b : EReal) : EReal := half * (a + b) + half * (a - b)

/-- An odd output row's entry, with the subtraction spelt as one. -/
def oddOf (a b : EReal) : EReal := half * (a + b) - half * (a - b)

/-- The odd row spelt as a sum with the negated half is the same extended real: `x + (-h)·d = x - h·d`. -/
theorem odd_as_sum (a b : EReal) :
    half * (a + b) + Ideal.ofBits .f32 0xBF000000#32 * (a - b) = oddOf a b := by
  unfold oddOf
  rw [negHalf, neg_mul, ← sub_eq_add_neg]

/-- Output row `r`: the even row when `r` is even, the odd row when it is odd. -/
def pairRow (a b : EReal) (r : Nat) : EReal := if r % 2 = 0 then evenOf a b else oddOf a b

/-! ## One block -/

/-- The block entry an output block's entry is computed from: same leading and lane coordinates, row `r / 2`. -/
def srcB (j : (⟨3, ![1, 1024, 1024]⟩ : Shape).Idx) : (⟨3, ![1, 512, 1024]⟩ : Shape).Idx :=
  ix3 (⟨(j 0).val, (j 0).isLt⟩ : Fin 1) (⟨(j 1).val / 2, by have h : (j 1).val < 1024 := (j 1).isLt; omega⟩ : Fin 512)
    (⟨(j 2).val, (j 2).isLt⟩ : Fin 1024)

/-- The output block from the two input blocks. -/
def rowsB (x y : (⟨3, ![1, 512, 1024]⟩ : Shape).Idx → EReal) : (⟨3, ![1, 1024, 1024]⟩ : Shape).Idx → EReal :=
  fun j => pairRow (x (srcB j)) (y (srcB j)) (j 1).val

/-! ## The array of 48 images -/

/-- The array entry an output array's entry is computed from. -/
def src3 (i : (⟨3, ![48, 1024, 1024]⟩ : Shape).Idx) : (⟨3, ![48, 512, 1024]⟩ : Shape).Idx :=
  ix3 (⟨(i 0).val, (i 0).isLt⟩ : Fin 48) (⟨(i 1).val / 2, by have h : (i 1).val < 1024 := (i 1).isLt; omega⟩ : Fin 512)
    (⟨(i 2).val, (i 2).isLt⟩ : Fin 1024)

/-- The output array from the two input arrays. -/
def rows3 (x y : (⟨3, ![48, 512, 1024]⟩ : Shape).Idx → EReal) : (⟨3, ![48, 1024, 1024]⟩ : Shape).Idx → EReal :=
  fun i => pairRow (x (src3 i)) (y (src3 i)) (i 1).val

/-! ## The array of 16 batches of 3 channels -/

/-- The array entry an output array's entry is computed from. -/
def src4 (i : (⟨4, ![16, 3, 1024, 1024]⟩ : Shape).Idx) : (⟨4, ![16, 3, 512, 1024]⟩ : Shape).Idx :=
  ix4 (⟨(i 0).val, (i 0).isLt⟩ : Fin 16) (⟨(i 1).val, (i 1).isLt⟩ : Fin 3)
    (⟨(i 2).val / 2, by have h : (i 2).val < 1024 := (i 2).isLt; omega⟩ : Fin 512) (⟨(i 3).val, (i 3).isLt⟩ : Fin 1024)

/-- The output array from the two input arrays. -/
def rows4 (x y : (⟨4, ![16, 3, 512, 1024]⟩ : Shape).Idx → EReal) : (⟨4, ![16, 3, 1024, 1024]⟩ : Shape).Idx → EReal :=
  fun i => pairRow (x (src4 i)) (y (src4 i)) (i 2).val

end Cert.Haar

end
-- ==== Proof.BodyRows.lean ====
/-
  What the kernel body stores, entry by entry.

  The body loads the two input blocks [1, 512, 1024], drops their unit axis, forms the even rows `h·s + h·d` and
  the odd rows `h·s - h·d` as two [512, 1024] values, gives each a unit axis after the row axis, joins the two
  along that axis into [512, 2, 1024], merges the row axis with the joined axis into 1024 rows and puts the unit
  axis back in front. The entry at row `r` and lane `w` has flat position `r·1024 + w`, which in the joined value
  is row `r / 2`, joined coordinate `r % 2`: the even value's row `r / 2` for even `r`, the odd value's for odd `r`.
-/
import proofs.«108222_j9732395893262_1_alg».proof.Proof.Gen.KernelIdeal.Skeleton
import proofs.«108222_j9732395893262_1_alg».proof.Proof.Haar
import Idealize.ShloMosaic.Lib.ValueIdx
import Idealize.ShloMosaic.Lib.Pipeline.Value

noncomputable section

namespace Cert.KernelIdeal.BodyRows

open Cert.KernelIdeal Cert.KernelIdeal.Gen Idealize.ShloMosaic Idealize.ShloMosaic.ValueIdx Cert.Haar

/-- Dropping a block's unit axis: entry (p, w) of the [512, 1024] value is entry (u, p, w) of the block. -/
theorem drop_lead (v : S1x512x1024.Idx → EReal) (u : Fin 1) (p : Fin 512) (w : Fin 1024) :
    shapeCast S512x1024 v shapeCasts_S1x512x1024_S512x1024 (ix2 p w) = v (ix3 u p w) :=
  shapeCast_apply v shapeCasts_S1x512x1024_S512x1024 (ix2 p w) (ix3 u p w) (by
    rewrite [Shape.rowMajor_val_three, Shape.rowMajor_val_two]
    show (u.val * 512 + p.val) * 1024 + w.val = p.val * 1024 + w.val
    have := u.isLt; omega)

/-- A unit axis after the row axis: entry (p, z, w) of the [512, 1, 1024] value is entry (p, w). -/
theorem add_mid (v : S512x1024.Idx → EReal) (p : Fin 512) (z : Fin 1) (w : Fin 1024) :
    shapeCast S512x1x1024 v shapeCasts_S512x1024_S512x1x1024 (ix3 p z w) = v (ix2 p w) :=
  shapeCast_apply v shapeCasts_S512x1024_S512x1x1024 (ix3 p z w) (ix2 p w) (by
    rewrite [Shape.rowMajor_val_three, Shape.rowMajor_val_two]
    show p.val * 1024 + w.val = (p.val * 1 + z.val) * 1024 + w.val
    have := z.isLt; omega)

/-- Merging the row axis with the joined axis: entry (r, w) of the [1024, 1024] value is entry (p, q, w) of the
    [512, 2, 1024] value when `r = 2·p + q`. -/
theorem merge_rows (v : S512x2x1024.Idx → EReal) (r : Fin 1024) (w : Fin 1024) (p : Fin 512) (q : Fin 2)
    (h : r.val = 2 * p.val + q.val) :
    shapeCast S1024x1024 v shapeCasts_S512x2x1024_S1024x1024 (ix2 r w) = v (ix3 p q w) :=
  shapeCast_apply v shapeCasts_S512x2x1024_S1024x1024 (ix2 r w) (ix3 p q w) (by
    rewrite [Shape.rowMajor_val_three, Shape.rowMajor_val_two]
    show (p.val * 2 + q.val) * 1024 + w.val = r.val * 1024 + w.val
    omega)

/-- The unit axis back in front: entry (u, r, w) of the stored block is entry (r, w). -/
theorem add_lead (v : S1024x1024.Idx → EReal) (u : Fin 1) (r : Fin 1024) (w : Fin 1024) :
    shapeCast S1x1024x1024 v shapeCasts_S1024x1024_S1x1024x1024 (ix3 u r w) = v (ix2 r w) :=
  shapeCast_apply v shapeCasts_S1024x1024_S1x1024x1024 (ix3 u r w) (ix2 r w) (by
    rewrite [Shape.rowMajor_val_three, Shape.rowMajor_val_two]
    show r.val * 1024 + w.val = (u.val * 1024 + r.val) * 1024 + w.val
    have := u.isLt; omega)

/-- The joined value at joined coordinate 0 is the first piece. -/
theorem join_fst (a b : S512x1x1024.Idx → EReal) (p : Fin 512) (q : Fin 2) (w : Fin 1024) (hq : q.val = 0) :
    concatenate S512x2x1024 1 [⟨S512x1x1024, a⟩, ⟨S512x1x1024, b⟩] concatenates_S512x1x1024_S512x1x1024_S512x2x1024_d1 (ix3 p q w)
      = a (ix3 p (⟨0, Nat.one_pos⟩ : Fin 1) w) :=
  concatenate_pair_apply_left (1 : Fin 3) a b concatenates_S512x1x1024_S512x1x1024_S512x2x1024_d1 (ix3 p q w) rfl
    (ix3 p (⟨0, Nat.one_pos⟩ : Fin 1) w) (fun c => by
      match c with
      | ⟨0, _⟩ => rfl
      | ⟨1, _⟩ => exact hq.symm
      | ⟨2, _⟩ => rfl)

/-- The joined value at joined coordinate 1 is the second piece. -/
theorem join_snd (a b : S512x1x1024.Idx → EReal) (p : Fin 512) (q : Fin 2) (w : Fin 1024) (hq : q.val = 1) :
    concatenate S512x2x1024 1 [⟨S512x1x1024, a⟩, ⟨S512x1x1024, b⟩] concatenates_S512x1x1024_S512x1x1024_S512x2x1024_d1 (ix3 p q w)
      = b (ix3 p (⟨0, Nat.one_pos⟩ : Fin 1) w) :=
  concatenate_pair_apply_right (1 : Fin 3) a b concatenates_S512x1x1024_S512x1x1024_S512x2x1024_d1 (ix3 p q w) rfl rfl
    (ix3 p (⟨0, Nat.one_pos⟩ : Fin 1) w) (fun c hc => by
      match c, hc with
      | ⟨0, _⟩, _ => rfl
      | ⟨1, _⟩, hc => exact absurd rfl hc
      | ⟨2, _⟩, _ => rfl) (by show 0 + 1 = q.val; omega)

/-- THE STORED BLOCK is the interleaving of the specification applied to the two loaded blocks. -/
theorem payload_rows (x0 x1 : S1x512x1024.Idx → EReal) : k0_pay1 (F := Ideal) x0 x1 = rowsB x0 x1 := by
  funext j
  obtain ⟨u, r, w, rfl⟩ : ∃ (u : Fin 1) (r : Fin 1024) (w : Fin 1024), j = ix3 u r w := ⟨j 0, j 1, j 2, eq_ix3 j⟩
  have hr : r.val < 1024 := r.isLt
  obtain ⟨p, hp⟩ : ∃ p : Fin 512, p.val = r.val / 2 := ⟨⟨r.val / 2, by omega⟩, rfl⟩
  obtain ⟨q, hq⟩ : ∃ q : Fin 2, q.val = r.val % 2 := ⟨⟨r.val % 2, by omega⟩, rfl⟩
  have hsrc : srcB (ix3 u r w) = ix3 u p w := by
    funext a
    match a with
    | ⟨0, _⟩ => rfl
    | ⟨1, _⟩ => exact Fin.ext hp.symm
    | ⟨2, _⟩ => rfl
  unfold k0_pay1
  refine (add_lead _ u r w).trans ?_
  refine (merge_rows _ r w p q (by omega)).trans ?_
  unfold rowsB pairRow
  rw [hsrc]
  by_cases he : r.val % 2 = 0
  · rw [if_pos (show ((ix3 u r w : (⟨3, ![1, 1024, 1024]⟩ : Shape).Idx) 1).val % 2 = 0 from he)]
    refine (join_fst _ _ p q w (by omega)).trans ?_
    refine (add_mid _ p _ w).trans ?_
    show half * (shapeCast S512x1024 x0 shapeCasts_S1x512x1024_S512x1024 (ix2 p w) + shapeCast S512x1024 x1 shapeCasts_S1x512x1024_S512x1024 (ix2 p w))
        + half * (shapeCast S512x1024 x0 shapeCasts_S1x512x1024_S512x1024 (ix2 p w) - shapeCast S512x1024 x1 shapeCasts_S1x512x1024_S512x1024 (ix2 p w))
      = evenOf (x0 (ix3 u p w)) (x1 (ix3 u p w))
    rw [drop_lead x0 u p w, drop_lead x1 u p w]
    rfl
  · rw [if_neg (show ¬ ((ix3 u r w : (⟨3, ![1, 1024, 1024]⟩ : Shape).Idx) 1).val % 2 = 0 from he)]
    refine (join_snd _ _ p q w (by omega)).trans ?_
    refine (add_mid _ p _ w).trans ?_
    show half * (shapeCast S512x1024 x0 shapeCasts_S1x512x1024_S512x1024 (ix2 p w) + shapeCast S512x1024 x1 shapeCasts_S1x512x1024_S512x1024 (ix2 p w))
        - half * (shapeCast S512x1024 x0 shapeCasts_S1x512x1024_S512x1024 (ix2 p w) - shapeCast S512x1024 x1 shapeCasts_S1x512x1024_S512x1024 (ix2 p w))
      = oddOf (x0 (ix3 u p w)) (x1 (ix3 u p w))
    rw [drop_lead x0 u p w, drop_lead x1 u p w]
    rfl

end Cert.KernelIdeal.BodyRows

end
-- ==== Proof.RegionRows.lean ====
/-
  The array the kernel region leaves, entry by entry.

  The region runs the body once per image `t` of the 48: the two input blocks at `t` are image `t` of the two
  input arrays [48, 512, 1024], and the block written back is image `t` of the output array [48, 1024, 1024]. The
  body's block is the interleaving of its two input blocks, and an entry (u, r, w) of block `t` sits at (t, r, w)
  of the array, so what point `t` writes back is block `t` of the interleaving of the two whole arrays. The 48
  blocks tile the array: entry (b, r, w) lies in the block of the point whose block index is `b`. So the array
  ends as the interleaving of the two input arrays.
-/
import proofs.«108222_j9732395893262_1_alg».proof.Proof.Gen.KernelIdeal.Frame
import proofs.«108222_j9732395893262_1_alg».proof.Proof.BodyRows
import Idealize.ShloMosaic.Lib.Pipeline.Value

noncomputable section

namespace Cert.KernelIdeal.RegionRows

open Cert.KernelIdeal Cert.KernelIdeal.Gen Idealize.ShloMosaic Idealize.ShloMosaic.TcCoe Idealize.SL.Sem
open Idealize.ShloMosaic.Pipeline (Dat)
open Idealize.ShloMosaic.ValueIdx Cert.Haar

variable (m : (ℓ : Loc nD τ sig) → Buf (Elt Ideal) ℓ)

/-- The body's accesses start at the block's origin. -/
theorem origin : (![0, 0, 0] : Fin 3 → Nat) = fun _ => 0 := funext fun a => by fin_cases a <;> rfl

/-- The three index maps over the grid: at every point the two inputs and the output are on the same image, and
    no map moves along the row or lane axis. -/
theorem index_maps : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every image is some point's. -/
theorem image_onto : ∀ b : Fin 48, ∃ t : Fin cfg0.N, win0_2.index t = ![b.val, 0, 0] :=
  (by decide +kernel : ∀ b : Fin 48, ∃ t : Fin grid0.N, win0_2.index t = ![b.val, 0, 0])

/-- WHAT POINT `t` WRITES BACK is block `t` of the interleaving of the two input arrays as the region finds them. -/
theorem flushed_rows (c : Dev nD) (t : Fin cfg0.N) :
    (dats m 0 c).flushed 2 t = ((cfg0.win 2).blk t).view.read (Elt Ideal) (rows3 (V m c main_v0) (V m c main_v1)) := by
  show (cfg0.win 2).cut (grid0.coords t) ((dats m 0 c).after 2 t) = _
  rw [after0_2]
  unfold out0_2
  rw [View.canon_unit_zero origin]
  simp only [View.ld_unit_zero (S := S1x512x1024) origin]
  rw [BodyRows.payload_rows]
  obtain ⟨e0, e1, e2, e3, e4, e5, e6, e7⟩ := index_maps t
  funext j
  have hj1 : (j 1).val < 1024 := (j 1).isLt
  show pairRow (V m c main_v0 (((cfg0.win 0).blk t).view.emb (srcB j))) (V m c main_v1 (((cfg0.win 1).blk t).view.emb (srcB j))) (j 1).val
    = pairRow (V m c main_v0 (src3 (((cfg0.win 2).blk t).view.emb j))) (V m c main_v1 (src3 (((cfg0.win 2).blk t).view.emb j)))
        ((((cfg0.win 2).blk t).view.emb j) 1).val
  have h0 : ((cfg0.win 0).blk t).view.emb (srcB j) = src3 (((cfg0.win 2).blk t).view.emb j) := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 512 + 1 * ((j 1).val / 2) = (win0_2.index t (1 : Fin 3) * 1024 + 1 * (j 1).val) / 2; omega
    | ⟨2, _⟩ => show win0_0.index t (2 : Fin 3) * 1024 + 1 * (j 2).val = win0_2.index t (2 : Fin 3) * 1024 + 1 * (j 2).val; omega
  have h1 : ((cfg0.win 1).blk t).view.emb (srcB j) = src3 (((cfg0.win 2).blk t).view.emb j) := by
    funext a; apply Fin.ext
    match a with
    | ⟨0, _⟩ => show win0_1.index t (0 : Fin 3) * 1 + 1 * (j 0).val = win0_2.index t (0 : Fin 3) * 1 + 1 * (j 0).val; omega
    | ⟨1, _⟩ => show win0_1.index t (1 : Fin 3) * 512 + 1 * ((j 1).val / 2) = (win0_2.index t (1 : Fin 3) * 1024 + 1 * (j 1).val) / 2; omega
    | ⟨2, _⟩ => show win0_1.index t (2 : Fin 3) * 1024 + 1 * (j 2).val = win0_2.index t (2 : Fin 3) * 1024 + 1 * (j 2).val; omega
  have hr : ((((cfg0.win 2).blk t).view.emb j) 1).val = (j 1).val := by
    show win0_2.index t (1 : Fin 3) * 1024 + 1 * (j 1).val = (j 1).val; omega
  rw [h0, h1, hr]

/-- An entry of the array is in point `t`'s block iff each coordinate is in the block's range on its axis. -/
theorem mem_block (t : Fin cfg0.N) (i : S48x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2).slice (win0_2.rect t)).set ↔ _
  rw [View.set_slice_whole, Rect.mem_set_unit]
  exact Iff.rfl

/-- The blocks tile the array: every entry is in the block of the point on its image. -/
theorem covered (i : S48x1024x1024.Idx) :
    ∃ t : Fin cfg0.N, (cfg0.win 2).flush t = true ∧ i ∈ ((cfg0.win 2).blk t).view.set := by
  have hi0 : (i 0).val < 48 := (i 0).isLt
  have hi1 : (i 1).val < 1024 := (i 1).isLt
  have hi2 : (i 2).val < 1024 := (i 2).isLt
  obtain ⟨t, ht⟩ := image_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE ARRAY AFTER THE REGION is the interleaving of the two input arrays as the region finds them. -/
theorem array_rows (c : Dev nD) : (dats m 0 c).arrAt 2 cfg0.N = rows3 (V m c main_v0) (V m c main_v1) :=
  (dats m 0 c).arrAt_eq_of_cover 2 (rows3 (V m c main_v0) (V m c main_v1)) (fun t _ => flushed_rows m c t) covered

end Cert.KernelIdeal.RegionRows

end
-- ==== Proof.BatchRows.lean ====
/-
  Flattening the batch and channel axes commutes with the interleaving.

  An array [16, 3, H, 1024] and its reshape [48, H, 1024] hold the same entries in the same row-major order: entry
  (b, c, r, w) of the first is entry (3·b + c, r, w) of the second. The interleaving acts on the row axis only, so
  reshaping both inputs to 48 images, interleaving, and reshaping the result back to 16 batches of 3 channels is
  the interleaving of the original arrays.
-/
import proofs.«108222_j9732395893262_1_alg».proof.Proof.Haar
import Idealize.ShloMosaic.Lib.ValueIdx
import Idealize.ShloMosaic.Lib.Pipeline.Value

noncomputable section

namespace Cert.Haar

open Idealize.ShloMosaic Idealize.ShloMosaic.ValueIdx

/-- Reshape to 48 images, interleave, reshape back: the interleaving of the 16 × 3 arrays. -/
theorem rows_flatten (a0 a1 : (⟨4, ![16, 3, 512, 1024]⟩ : Shape).Idx → EReal)
    (h : (⟨4, ![16, 3, 512, 1024]⟩ : Shape).ShapeCasts ⟨3, ![48, 512, 1024]⟩)
    (h' : (⟨3, ![48, 1024, 1024]⟩ : Shape).ShapeCasts ⟨4, ![16, 3, 1024, 1024]⟩) :
    shapeCast ⟨4, ![16, 3, 1024, 1024]⟩ (rows3 (shapeCast ⟨3, ![48, 512, 1024]⟩ a0 h) (shapeCast ⟨3, ![48, 512, 1024]⟩ a1 h)) h'
      = rows4 a0 a1 := by
  funext i
  obtain ⟨b, ch, r, w, rfl⟩ : ∃ (b : Fin 16) (ch : Fin 3) (r : Fin 1024) (w : Fin 1024), i = ix4 b ch r w :=
    ⟨i 0, i 1, i 2, i 3, eq_ix4 i⟩
  have hb : b.val < 16 := b.isLt
  have hc : ch.val < 3 := ch.isLt
  have hr : r.val < 1024 := r.isLt
  obtain ⟨k, hk⟩ : ∃ k : Fin 48, k.val = b.val * 3 + ch.val := ⟨⟨b.val * 3 + ch.val, by omega⟩, rfl⟩
  refine (shapeCast_apply _ h' (ix4 b ch r w) (ix3 k r w) (by
    rewrite [Shape.rowMajor_val_three, Shape.rowMajor_val_four]
    show (k.val * 1024 + r.val) * 1024 + w.val = ((b.val * 3 + ch.val) * 1024 + r.val) * 1024 + w.val
    rw [hk])).trans ?_
  have e : ∀ a : (⟨4, ![16, 3, 512, 1024]⟩ : Shape).Idx → EReal,
      shapeCast ⟨3, ![48, 512, 1024]⟩ a h (src3 (ix3 k r w)) = a (src4 (ix4 b ch r w)) := fun a =>
    shapeCast_apply a h (src3 (ix3 k r w)) (src4 (ix4 b ch r w)) (by
      rewrite [Shape.rowMajor_val_four, Shape.rowMajor_val_three]
      show ((b.val * 3 + ch.val) * 512 + r.val / 2) * 1024 + w.val = (k.val * 512 + r.val / 2) * 1024 + w.val
      rw [hk])
  unfold rows3 rows4
  rw [e a0, e a1]

end Cert.Haar

end
-- ==== Proof.KernelRun.lean ====
/-
  The kernel program's result.

  Before the region the host reshapes each input [16, 3, 512, 1024] to 48 images [48, 512, 1024]; the region leaves
  the interleaving of those two arrays in [48, 1024, 1024]; after the region the host reshapes that array to
  [16, 3, 1024, 1024], which is the program's result. Flattening the batch and channel axes commutes with the
  interleaving, so the result is the interleaving of the two inputs as launched; the inputs end unchanged.
-/
import proofs.«108222_j9732395893262_1_alg».proof.Proof.Gen.KernelIdeal.Frame
import proofs.«108222_j9732395893262_1_alg».proof.Proof.RegionRows
import proofs.«108222_j9732395893262_1_alg».proof.Proof.BatchRows
import Idealize.ShloMosaic.Lib.StableHlo.Run
import Idealize.ShloMosaic.Lib.Pipeline.Value

noncomputable section

namespace Cert.KernelIdeal.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.Haar

variable (m : (ℓ : Loc nD τ sig) → Buf (Elt Ideal) ℓ) (ρ : Dev nD → PrngReg)

/-- The region finds the first input as the host's reshape of it to 48 images. -/
theorem images0 (c : Dev nD) :
    (V m c main_v0 : S48x512x1024.Idx → EReal)
      = shapeCast S48x512x1024 (m ((c : Thread nD τ).loc main_arg0)) shapeCasts_S16x3x512x1024_S48x512x1024 := by
  show StableHlo.after hostOps0 (fun b => m (c, b)) (Proc.devRef .tc main_v0) = _
  after_results
  rfl

/-- The region finds the second input as the host's reshape of it to 48 images. -/
theorem images1 (c : Dev nD) :
    (V m c main_v1 : S48x512x1024.Idx → EReal)
      = shapeCast S48x512x1024 (m ((c : Thread nD τ).loc main_arg1)) shapeCasts_S16x3x512x1024_S48x512x1024 := by
  show StableHlo.after hostOps0 (fun b => m (c, b)) (Proc.devRef .tc main_v1) = _
  after_results
  rfl

/-- THE RESULT after the host's last reshape: the interleaving of the two inputs as launched. -/
theorem result_rows (c : Dev nD) :
    (Pipeline.afterTail₀ cfgs (dats m) 0 (V0 m) [hostOps1] c main_v3 : S16x3x1024x1024.Idx → EReal)
      = rows4 (m ((c : Thread nD τ).loc main_arg0)) (m ((c : Thread nD τ).loc main_arg1)) := by
  unfold Pipeline.afterTail₀
  show StableHlo.after hostOps1 _ (Proc.devRef .tc main_v3) = _
  after_results
  rw [Pipeline.withArrays_arr spec0 launch0.win.arr_inj c _ _ 2, RegionRows.array_rows, images0, images1]
  exact rows_flatten _ _ _ _

/-- The kernel program's run: every weakly fair execution ends with the result at the interleaving of the two inputs
    and the inputs unchanged. -/
theorem run : θ_run defs (onTc (τ := τ) (main (F := Ideal))) ⟨m, fun _ => 0, ρ⟩ fun r => ∀ c : Dev nD,
      r.2.mem ((c.tc : Thread nD τ).loc main_v3) = rows4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (result_rows m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.RefRows.lean ====
/-
  The reference's result, entry by entry.

  The reference forms the even rows and the odd rows as two whole arrays [16, 3, 512, 1024], gives each a unit axis
  after the row axis, joins the two along that axis into [16, 3, 512, 2, 1024] and merges the row axis with the
  joined axis into 1024 rows. An entry of the result at row `r` has flat position `((b·3 + c)·1024 + r)·1024 + w`;
  in the five-axis array that position has row coordinate `r / 2` and joined coordinate `r % 2`, so it is the even
  array's entry of row `r / 2` when `r` is even and the odd array's when `r` is odd. The odd array is spelt as
  the sum with the negated half.
-/
import proofs.«108222_j9732395893262_1_alg».proof.Proof.Gen.ReferenceIdeal.Read
import proofs.«108222_j9732395893262_1_alg».proof.Proof.Haar
import Idealize.ShloMosaic.Lib.ValueIdx
import Idealize.ShloMosaic.Lib.Pipeline.Value

noncomputable section

namespace Cert.ReferenceIdeal.RefRows

open Cert.ReferenceIdeal Cert.ReferenceIdeal.Gen Cert.ReferenceIdeal.Read Idealize.ShloMosaic Idealize.ShloMosaic.ValueIdx Cert.Haar

/-- The even-rows array, at an entry. -/
theorem even_stage (x0 x1 : S16x3x512x1024.Idx → EReal) (k : S16x3x512x1024.Idx) :
    val_main_v6 (F := Ideal) x0 x1 k = evenOf (x0 k) (x1 k) := by
  rw [val_main_v6_apply, val_main_v3_apply, val_main_v5_apply, val_main_v2_apply, val_main_v4_apply,
    val_main_cst_apply, val_main_cst_0_apply, val_main_v0_apply, val_main_v1_apply]
  rfl

/-- The odd-rows array, at an entry: the sum with the negated half is the difference. -/
theorem odd_stage (x0 x1 : S16x3x512x1024.Idx → EReal) (k : S16x3x512x1024.Idx) :
    val_main_v11 (F := Ideal) x0 x1 k = oddOf (x0 k) (x1 k) := by
  rw [val_main_v11_apply, val_main_v8_apply, val_main_v10_apply, val_main_v7_apply, val_main_v9_apply,
    val_main_cst_1_apply, val_main_cst_2_apply, val_main_v0_apply, val_main_v1_apply]
  exact odd_as_sum _ _

/-- The entry of either five-axis piece that the result's entry `i` is read from: row `r / 2`, unit coordinate 0. -/
def piece (i : S16x3x1024x1024.Idx) : S16x3x512x1x1024.Idx :=
  ix5 (⟨(i 0).val, (i 0).isLt⟩ : Fin 16) (⟨(i 1).val, (i 1).isLt⟩ : Fin 3)
    (⟨(i 2).val / 2, by have h : (i 2).val < 1024 := (i 2).isLt; omega⟩ : Fin 512) (⟨0, Nat.one_pos⟩ : Fin 1)
    (⟨(i 3).val, (i 3).isLt⟩ : Fin 1024)

/-- Dropping the unit axis of that entry gives the input entry of the specification. -/
theorem idx12_piece (i : S16x3x1024x1024.Idx) : idx_main_v12 (piece i) = src4 i := by
  funext a
  match a with
  | ⟨0, _⟩ => rfl
  | ⟨1, _⟩ => rfl
  | ⟨2, _⟩ => rfl
  | ⟨3, _⟩ => rfl

theorem idx13_piece (i : S16x3x1024x1024.Idx) : idx_main_v13 (piece i) = src4 i := by
  funext a
  match a with
  | ⟨0, _⟩ => rfl
  | ⟨1, _⟩ => rfl
  | ⟨2, _⟩ => rfl
  | ⟨3, _⟩ => rfl

/-- THE REFERENCE'S RESULT is the interleaving of the specification. -/
theorem result_rows (x0 x1 : S16x3x512x1024.Idx → EReal) : val_main_v15 (F := Ideal) x0 x1 = rows4 x0 x1 := by
  funext i
  have h0 : (i 0).val < 16 := (i 0).isLt
  have h1 : (i 1).val < 3 := (i 1).isLt
  have h2 : (i 2).val < 1024 := (i 2).isLt
  have h3 : (i 3).val < 1024 := (i 3).isLt
  rw [val_main_v15_apply]
  unfold val_main_v14
  by_cases hp : (i 2).val % 2 = 0
  · -- an even row: the first piece
    refine (concatenate_pair_apply_left (3 : Fin 5) (val_main_v12 (F := Ideal) x0 x1) (val_main_v13 (F := Ideal) x0 x1)
      concatenates_S16x3x512x1x1024_S16x3x512x1x1024_S16x3x512x2x1024_d3 (idx_main_v15 i) rfl (piece i) ?_).trans ?_
    · intro b
      match b with
      | ⟨0, _⟩ => show (i 0).val = ((((i 0).val * 3 + (i 1).val) * 1024 + (i 2).val) * 1024 + (i 3).val) / 3145728; omega
      | ⟨1, _⟩ => show (i 1).val = ((((i 0).val * 3 + (i 1).val) * 1024 + (i 2).val) * 1024 + (i 3).val) / 1048576 % 3; omega
      | ⟨2, _⟩ => show (i 2).val / 2 = ((((i 0).val * 3 + (i 1).val) * 1024 + (i 2).val) * 1024 + (i 3).val) / 2048 % 512; omega
      | ⟨3, _⟩ => show 0 = ((((i 0).val * 3 + (i 1).val) * 1024 + (i 2).val) * 1024 + (i 3).val) / 1024 % 2; omega
      | ⟨4, _⟩ => show (i 3).val = ((((i 0).val * 3 + (i 1).val) * 1024 + (i 2).val) * 1024 + (i 3).val) % 1024; omega
    · rw [val_main_v12_apply, even_stage, idx12_piece]
      unfold rows4 pairRow
      rw [if_pos hp]
  · -- an odd row: the second piece
    refine (concatenate_pair_apply_right (3 : Fin 5) (val_main_v12 (F := Ideal) x0 x1) (val_main_v13 (F := Ideal) x0 x1)
      concatenates_S16x3x512x1x1024_S16x3x512x1x1024_S16x3x512x2x1024_d3 (idx_main_v15 i) rfl rfl (piece i) ?_ ?_).trans ?_
    · intro b hb
      match b, hb with
      | ⟨0, _⟩, _ => show (i 0).val = ((((i 0).val * 3 + (i 1).val) * 1024 + (i 2).val) * 1024 + (i 3).val) / 3145728; omega
      | ⟨1, _⟩, _ => show (i 1).val = ((((i 0).val * 3 + (i 1).val) * 1024 + (i 2).val) * 1024 + (i 3).val) / 1048576 % 3; omega
      | ⟨2, _⟩, _ => show (i 2).val / 2 = ((((i 0).val * 3 + (i 1).val) * 1024 + (i 2).val) * 1024 + (i 3).val) / 2048 % 512; omega
      | ⟨3, _⟩, hb => exact absurd rfl hb
      | ⟨4, _⟩, _ => show (i 3).val = ((((i 0).val * 3 + (i 1).val) * 1024 + (i 2).val) * 1024 + (i 3).val) % 1024; omega
    · show 0 + 1 = ((((i 0).val * 3 + (i 1).val) * 1024 + (i 2).val) * 1024 + (i 3).val) / 1024 % 2
      omega
    · rw [val_main_v13_apply, odd_stage, idx13_piece]
      unfold rows4 pairRow
      rw [if_neg hp]

end Cert.ReferenceIdeal.RefRows

end
-- ==== Proof.lean ====
/-
  The certificate: the Pallas kernel for one vertical step of the inverse Haar transform computes, over the extended
  reals, what its jnp reference computes.

  Both programs take a low-pass array and a detail array [16, 3, 512, 1024] and return [16, 3, 1024, 1024]. With
  `s = low + detail`, `d = low - detail` and `h` the float word for one half, output row `2i` is `h·s + h·d` and
  output row `2i + 1` is `h·s - h·d` of input row `i` (Proof/Haar.lean: `rows4`). The kernel flattens batch and
  channel to 48 images, computes one image per grid point, interleaving the two row families inside the body, and
  reshapes back (Proof/BodyRows.lean, Proof/RegionRows.lean, Proof/BatchRows.lean, Proof/KernelRun.lean). The
  reference forms the two families as whole arrays, spells the odd one `h·s + (-h)·d`, and interleaves them by a
  join and a reshape (Proof/RefRows.lean). On the extended reals `x + (-h)·d = x - h·d` for every `x` and `d`,
  infinite ones included, so the two results are equal entry by entry and the precondition is not used.

  The three frames are the generated ones (the reference's is its generated run with the result dropped); the
  idealization rewrote nothing, so `preserves` is trivial.
-/
import proofs.«108222_j9732395893262_1_alg».proof.Defs
import proofs.«108222_j9732395893262_1_alg».proof.Proof.Gen.Kernel
import proofs.«108222_j9732395893262_1_alg».proof.Proof.Gen.Kernel.Frame
import proofs.«108222_j9732395893262_1_alg».proof.Proof.Gen.KernelIdeal
import proofs.«108222_j9732395893262_1_alg».proof.Proof.Gen.KernelIdeal.Frame
import proofs.«108222_j9732395893262_1_alg».proof.Proof.Gen.ReferenceIdeal
import proofs.«108222_j9732395893262_1_alg».proof.Proof.Gen.ReferenceIdeal.Run
import proofs.«108222_j9732395893262_1_alg».proof.Proof.Gen.ReferenceIdeal.Read
import proofs.«108222_j9732395893262_1_alg».proof.Proof.Gen.Pre_finite_inputs
import proofs.«108222_j9732395893262_1_alg».proof.Proof.KernelRun
import proofs.«108222_j9732395893262_1_alg».proof.Proof.RefRows
import Idealize.ShloMosaic.Adequacy
import Idealize.ShloMosaic.Init

noncomputable section

namespace Cert.Proof

open Idealize.ShloMosaic Idealize.SL.Sem

/-- The kernel as printed runs, faults nowhere and leaves its inputs unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two inputs, both programs end with the interleaving `rows4` of those inputs. -/
theorem algebraic : Cert.algebraic_KernelIdeal_ReferenceIdeal := by
  intro m ρ m' ρ' _ hagree
  refine ⟨fun c => Cert.Haar.rows4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefRows.result_rows, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
